-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v8)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x16256x16 : Shape := ⟨3, ![128, 16256, 16]⟩
abbrev S16256 : Shape := ⟨1, ![16256]⟩
abbrev S_ : Shape := ⟨0, ![]⟩

class Facts : Prop where
  bcast_S_S128x16256x16 : S_.BroadcastsInDim S128x16256x16 (![] : Fin 0 → Fin S128x16256x16.rank)
  reducesTo_S128x16256x16_S_d0_1_2 : S128x16256x16.ReducesTo [0, 1, 2] S_
  h_S_ : 0 < S_.numel
  bcast_S_S16256 : S_.BroadcastsInDim S16256 (![] : Fin 0 → Fin S16256.rank)
  reducesTo_S16256_S_d0 : S16256.ReducesTo [0] S_

variable [Facts]

def fn {F : FTy → Type} [FloatOps F] (main_arg0 : FVec F S128x16256x16 .f32) (main_arg1 : IVec S16256 32) : IVec S_ 1 :=
  let main_v0 : FVec F S128x16256x16 .f32 := Host.absf main_arg0
  let main_cst : FVec F S_ .f32 := constant S_ .f32 0x7F800000#32
  let main_v1 : FVec F S128x16256x16 .f32 := broadcastInDim S128x16256x16 ![] bcast_S_S128x16256x16 main_cst
  let main_v2 : IVec S128x16256x16 1 := cmpf .olt main_v0 main_v1
  let main_c : IVec S_ 1 := constantI S_ 1 1#1
  let main_v3 : IVec S_ 1 := (fun x v => Host.reduce IntOp.andi x v reducesTo_S128x16256x16_S_d0_1_2 h_S_) main_v2 main_c
  let main_c_0 : IVec S_ 32 := constantI S_ 32 0#32
  let main_v4 : IVec S16256 32 := broadcastInDim S16256 ![] bcast_S_S16256 main_c_0
  let main_v5 : IVec S16256 1 := cmpi .sge main_arg1 main_v4
  let main_c_1 : IVec S_ 1 := constantI S_ 1 1#1
  let main_v6 : IVec S_ 1 := (fun x v => Host.reduce IntOp.andi x v reducesTo_S16256_S_d0 h_S_) main_v5 main_c_1
  let main_v7 : IVec S_ 1 := andi main_v3 main_v6
  let main_c_2 : IVec S_ 32 := constantI S_ 32 128#32
  let main_v8 : IVec S16256 32 := broadcastInDim S16256 ![] bcast_S_S16256 main_c_2
  let main_v9 : IVec S16256 1 := cmpi .slt main_arg1 main_v8
  let main_c_3 : IVec S_ 1 := constantI S_ 1 1#1
  let main_v10 : IVec S_ 1 := (fun x v => Host.reduce IntOp.andi x v reducesTo_S16256_S_d0 h_S_) main_v9 main_c_3
  let main_v11 : IVec S_ 1 := andi main_v7 main_v10
  main_v11
-- ==== Kernel.lean ====
abbrev S128x16256x16 : Shape := ⟨3, ![128, 16256, 16]⟩
abbrev S16256 : Shape := ⟨1, ![16256]⟩
abbrev S128 : Shape := ⟨1, ![128]⟩
abbrev S16256x1 : Shape := ⟨2, ![16256, 1]⟩
abbrev S1x128 : Shape := ⟨2, ![1, 128]⟩
abbrev S16256x128 : Shape := ⟨2, ![16256, 128]⟩
abbrev S128x16256 : Shape := ⟨2, ![128, 16256]⟩
abbrev S128x16x16256 : Shape := ⟨3, ![128, 16, 16256]⟩
abbrev S1x16256x16 : Shape := ⟨3, ![1, 16256, 16]⟩
abbrev S1x16x16256 : Shape := ⟨3, ![1, 16, 16256]⟩
abbrev S16x16256 : Shape := ⟨2, ![16, 16256]⟩
abbrev S16x128 : Shape := ⟨2, ![16, 128]⟩

abbrev nBuf : Space → Nat
  | .hbm => 11
  | .vmem => 6
  | .smem => 0
  | _ => 0

abbrev bufTy : (tb : Table) → Fin (tcTables nBuf tb) → BufTy
  | .hbm, ⟨0, _⟩ => ⟨S128x16256x16, .f32⟩
  | .hbm, ⟨1, _⟩ => ⟨S16256, .i32⟩
  | .hbm, ⟨2, _⟩ => ⟨S128, .i32⟩
  | .hbm, ⟨3, _⟩ => ⟨S16256x1, .i32⟩
  | .hbm, ⟨4, _⟩ => ⟨S1x128, .i32⟩
  | .hbm, ⟨5, _⟩ => ⟨S16256x128, .i32⟩
  | .hbm, ⟨6, _⟩ => ⟨S16256x128, .i32⟩
  | .hbm, ⟨7, _⟩ => ⟨S16256x128, .i1⟩
  | .hbm, ⟨8, _⟩ => ⟨S16256x128, .bf16⟩
  | .hbm, ⟨9, _⟩ => ⟨S128x16256, .bf16⟩
  | .hbm, ⟨10, _⟩ => ⟨S128x16x16256, .f32⟩
  | .local _ .vmem, ⟨0, _⟩ => ⟨S1x16256x16, .f32⟩
  | .local _ .vmem, ⟨1, _⟩ => ⟨S1x16256x16, .f32⟩
  | .local _ .vmem, ⟨2, _⟩ => ⟨S16256x128, .bf16⟩
  | .local _ .vmem, ⟨3, _⟩ => ⟨S128x16256, .bf16⟩
  | .local _ .vmem, ⟨4, _⟩ => ⟨S1x16x16256, .f32⟩
  | .local _ .vmem, ⟨5, _⟩ => ⟨S1x16x16256, .f32⟩
  | _, _ => ⟨S128x16256x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x16256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16256x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x16256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S1x16x16256 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S16256_S16256x1_0 : S16256.BroadcastsInDim S16256x1 (![0] : Fin 1 → Fin S16256x1.rank)
  bcast_S128_S1x128_1 : S128.BroadcastsInDim S1x128 (![1] : Fin 1 → Fin S1x128.rank)
  bcast_S16256x1_S16256x128_0_1 : S16256x1.BroadcastsInDim S16256x128 (![0, 1] : Fin 2 → Fin S16256x128.rank)
  bcast_S1x128_S16256x128_0_1 : S1x128.BroadcastsInDim S16256x128 (![0, 1] : Fin 2 → Fin S16256x128.rank)
  transposes_S16256x128_S128x16256_1_0 : S16256x128.Transposes [1, 0] S128x16256
  inb_S1x16256x16_S1x16256x16_0_0_0 : ∀ a, (![0, 0, 0] : Fin 3 → Nat) a + S1x16256x16.size a ≤ S1x16256x16.size a
  h_S1x16256x16 : 0 < S1x16256x16.numel
  transposes_S1x16256x16_p0_2_1_S1x16x16256 : S1x16256x16.Transposes [0, 2, 1] S1x16x16256
  bitsLt_bf16_f32 : FTy.bits .bf16 < FTy.bits .f32
  shapeCasts_S1x16x16256_S16x16256 : S1x16x16256.ShapeCasts S16x16256
  inb_S16256x128_S16256x128_0_0 : ∀ a, (![0, 0] : Fin 2 → Nat) a + S16256x128.size a ≤ S16256x128.size a
  h_S16256x128 : 0 < S16256x128.numel
  shapeCasts_S16256x128_S16256x128 : S16256x128.ShapeCasts S16256x128
  inb_S128x16256_S128x16256_0_0 : ∀ a, (![0, 0] : Fin 2 → Nat) a + S128x16256.size a ≤ S128x16256.size a
  h_S128x16256 : 0 < S128x16256.numel
  shapeCasts_S128x16256_S128x16256 : S128x16256.ShapeCasts S128x16256
  shapeCasts_S16x16256_S1x16x16256 : S16x16256.ShapeCasts S1x16x16256
  inb_S1x16x16256_S1x16x16256_0_0_0 : ∀ a, (![0, 0, 0] : Fin 3 → Nat) a + S1x16x16256.size a ≤ S1x16x16256.size a
  h_S1x16x16256 : 0 < S1x16x16256.numel
  dot_S16x16256_S16256x128_S16x128_1_0_0_1_n_n_wf : DotDims.WF S16x16256 S16256x128 S16x128 [1] [0] [0] [1] [] []
  dot_S16x128_S128x16256_S16x16256_1_0_0_1_n_n_wf : DotDims.WF S16x128 S128x16256 S16x16256 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16256x16.size a ≤ S128x16256x16.size a
  hwx0_0 : ∀ i : grid0.Coords, EltTy.bits .f32 = 32 ∨ (Rect.block (s := S128x16256x16) S1x16256x16.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S16256x128.size a ≤ S16256x128.size a
  hwx0_1 : ∀ i : grid0.Coords, EltTy.bits .bf16 = 32 ∨ (Rect.block (s := S16256x128) S16256x128.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x16256.size a ≤ S128x16256.size a
  hwx0_2 : ∀ i : grid0.Coords, EltTy.bits .bf16 = 32 ∨ (Rect.block (s := S128x16256) S128x16256.size (cc0_transform_2 i) (hinb0_2 i)).WholeWords (EltTy.packing .bf16)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x16x16256.size a ≤ S128x16x16256.size a
  hwx0_3 : ∀ i : grid0.Coords, EltTy.bits .f32 = 32 ∨ (Rect.block (s := S128x16x16256) S1x16x16256.size (cc0_transform_3 i) (hinb0_3 i)).WholeWords (EltTy.packing .f32)

variable [Facts₀]

def dot_S16x16256_S16256x128_S16x128_1_0_0_1_n_n : DotDims S16x16256 S16256x128 S16x128 where
  lhsContracting := [1]
  rhsContracting := [0]
  lhsNonContracting := [0]
  rhsNonContracting := [1]
  lhsBatch := []
  rhsBatch := []
  wf := dot_S16x16256_S16256x128_S16x128_1_0_0_1_n_n_wf
def dot_S16x128_S128x16256_S16x16256_1_0_0_1_n_n : DotDims S16x128 S128x16256 S16x16256 where
  lhsContracting := [1]
  rhsContracting := [0]
  lhsNonContracting := [0]
  rhsNonContracting := [1]
  lhsBatch := []
  rhsBatch := []
  wf := dot_S16x128_S128x16256_S16x16256_1_0_0_1_n_n_wf

abbrev win0_0 : Pipeline.Window sig grid0 :=
  Pipeline.Window.ofSpec (Memref.whole main_arg0) S1x16256x16.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v6) S16256x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v7) S128x16256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v8) S1x16x16256.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x16256x16 : Shape := ⟨3, ![128, 16256, 16]⟩
abbrev S16256 : Shape := ⟨1, ![16256]⟩
abbrev S16256x128x16 : Shape := ⟨3, ![16256, 128, 16]⟩
abbrev S_ : Shape := ⟨0, ![]⟩
abbrev S128x128x16 : Shape := ⟨3, ![128, 128, 16]⟩
abbrev S16256x1 : Shape := ⟨2, ![16256, 1]⟩
abbrev S128x16x16256 : Shape := ⟨3, ![128, 16, 16256]⟩

abbrev nBuf : Space → Nat
  | .hbm => 20
  | .vmem => 0
  | .smem => 0
  | _ => 0

abbrev bufTy : (tb : Table) → Fin (tcTables nBuf tb) → BufTy
  | .hbm, ⟨0, _⟩ => ⟨S128x16256x16, .f32⟩
  | .hbm, ⟨1, _⟩ => ⟨S16256, .i32⟩
  | .hbm, ⟨2, _⟩ => ⟨S128x16256x16, .f32⟩
  | .hbm, ⟨3, _⟩ => ⟨S16256x128x16, .f32⟩
  | .hbm, ⟨4, _⟩ => ⟨S_, .f32⟩
  | .hbm, ⟨5, _⟩ => ⟨S128x128x16, .f32⟩
  | .hbm, ⟨6, _⟩ => ⟨S16256x1, .i32⟩
  | .hbm, ⟨7, _⟩ => ⟨S128x128x16, .f32⟩
  | .hbm, ⟨8, _⟩ => ⟨S_, .i32⟩
  | .hbm, ⟨9, _⟩ => ⟨S16256, .i32⟩
  | .hbm, ⟨10, _⟩ => ⟨S16256, .i1⟩
  | .hbm, ⟨11, _⟩ => ⟨S_, .i32⟩
  | .hbm, ⟨12, _⟩ => ⟨S16256, .i32⟩
  | .hbm, ⟨13, _⟩ => ⟨S16256, .i32⟩
  | .hbm, ⟨14, _⟩ => ⟨S16256, .i32⟩
  | .hbm, ⟨15, _⟩ => ⟨S16256x1, .i32⟩
  | .hbm, ⟨16, _⟩ => ⟨S16256x128x16, .f32⟩
  | .hbm, ⟨17, _⟩ => ⟨S128x16x16256, .f32⟩
  | .hbm, ⟨18, _⟩ => ⟨S128x16x16256, .f32⟩
  | .hbm, ⟨19, _⟩ => ⟨S128x16x16256, .f32⟩
  | _, _ => ⟨S128x16256x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_c : Ref sig .tc := ⟨.hbm, 8, rfl⟩
abbrev main_v5 : Ref sig .tc := ⟨.hbm, 9, rfl⟩
abbrev main_v6 : Ref sig .tc := ⟨.hbm, 10, rfl⟩
abbrev main_c_0 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]

class Facts₀ : Prop where
  transposes_S128x16256x16_S16256x128x16_1_0_2 : S128x16256x16.Transposes [1, 0, 2] S16256x128x16
  bcast_S_S128x128x16 : S_.BroadcastsInDim S128x128x16 (![] : Fin 0 → Fin S128x128x16.rank)
  bcast_S16256_S16256x1_0 : S16256.BroadcastsInDim S16256x1 (![0] : Fin 1 → Fin S16256x1.rank)
  bcast_S_S16256 : S_.BroadcastsInDim S16256 (![] : Fin 0 → Fin S16256.rank)
  transposes_S16256x128x16_S128x16x16256_1_2_0 : S16256x128x16.Transposes [1, 2, 0] S128x16x16256
  transposes_S128x16256x16_S128x16x16256_0_2_1 : S128x16256x16.Transposes [0, 2, 1] S128x16x16256
  scatter_S128x128x16_S16256x1_S16256x128x16_12_0_0_1_wf : ScatterDims.WF S128x128x16 S16256x1 S16256x128x16 [1, 2] [0] [0] 1
  gather_S128x128x16_S16256x1_S16256x128x16_12_0_n_n_0_1_112816_wf : GatherDims.WF S128x128x16 S16256x1 S16256x128x16 [1, 2] [0] [] [0] [] 1 ![1, 128, 16]

variable [Facts₀]

def scatter_S128x128x16_S16256x1_S16256x128x16_12_0_0_1 : ScatterDims S128x128x16 S16256x1 S16256x128x16 where
  updateWindowDims := [1, 2]
  insertedWindowDims := [0]
  scatterDimsToOperandDims := [0]
  indexVectorDim := 1
  wf := scatter_S128x128x16_S16256x1_S16256x128x16_12_0_0_1_wf
def gather_S128x128x16_S16256x1_S16256x128x16_12_0_n_n_0_1_112816 : GatherDims S128x128x16 S16256x1 S16256x128x16 where
  offsetDims := [1, 2]
  collapsedSliceDims := [0]
  operandBatchingDims := []
  startIndicesBatchingDims := []
  startIndexMap := [0]
  indexVectorDim := 1
  sliceSizes := ![1, 128, 16]
  wf := gather_S128x128x16_S16256x1_S16256x128x16_12_0_n_n_0_1_112816_wf

class Facts : Prop extends Facts₀ where

variable [Facts]
-- ==== Proof.Payload.lean ====
/-
  What the kernel body stores, entry by entry, on the extended reals.

  At a grid point the body holds one batch slab `x : [1, edges, channels]`, the one-hot table `h : [edges, nodes]` and its
  transpose `h' : [nodes, edges]`. It transposes the slab to `[1, channels, edges]`, exponentiates, contracts the
  edges against `h` (a node's sum of its edges' exponentials, per channel), contracts the nodes against `h'` (each edge
  is handed its node's sum), and divides the transposed slab by that. The format changes between the steps are the
  identity here, and both matrix products start from a zero accumulator, so entry `(0, c, r)` of the stored block is
  `x(0, r, c) / ∑ n, (∑ r', exp x(0, r', c) · h(r', n)) · h'(n, r)`.
-/
import proofs.«417916_j18124761989894_2_alg».proof.Proof.Gen.KernelIdeal.Skeleton
import Idealize.ShloMosaic.PureOps.Ideal.Laws
import Idealize.ShloMosaic.Lib.ValueIdx
import Idealize.ShloMosaic.Lib.Pipeline.Value

noncomputable section

namespace Cert.EdgeNorm

open Idealize.ShloMosaic Idealize.ShloMosaic.ValueIdx Cert.KernelIdeal Cert.KernelIdeal.Gen

/-! ## The first product: edges contracted against the one-hot table -/

theorem lhs_seg_0 (i : S16x128.Idx) (q : dot_S16x16256_S16256x128_S16x128_1_0_0_1_n_n.contr.Idx) :
    (dot_S16x16256_S16256x128_S16x128_1_0_0_1_n_n.lhsIdx i q 0).val = (i 0).val := by
  unfold DotDims.lhsIdx
  rw [dif_neg (show ¬(0 : Fin S16x16256.rank) ∈ dot_S16x16256_S16256x128_S16x128_1_0_0_1_n_n.lhsBatch by decide),
    dif_pos (show (0 : Fin S16x16256.rank) ∈ dot_S16x16256_S16256x128_S16x128_1_0_0_1_n_n.lhsNonContracting by decide)]
  rfl
theorem lhs_seg_1 (i : S16x128.Idx) (q : dot_S16x16256_S16256x128_S16x128_1_0_0_1_n_n.contr.Idx) :
    (dot_S16x16256_S16256x128_S16x128_1_0_0_1_n_n.lhsIdx i q 1).val = (q ⟨0, by decide⟩).val :=
  dot_S16x16256_S16256x128_S16x128_1_0_0_1_n_n.lhsIdx_val_of_single rfl i q
theorem rhs_seg_0 (i : S16x128.Idx) (q : dot_S16x16256_S16256x128_S16x128_1_0_0_1_n_n.contr.Idx) :
    (dot_S16x16256_S16256x128_S16x128_1_0_0_1_n_n.rhsIdx i q 0).val = (q ⟨0, by decide⟩).val :=
  dot_S16x16256_S16256x128_S16x128_1_0_0_1_n_n.rhsIdx_val_of_single rfl i q
theorem rhs_seg_1 (i : S16x128.Idx) (q : dot_S16x16256_S16256x128_S16x128_1_0_0_1_n_n.contr.Idx) :
    (dot_S16x16256_S16256x128_S16x128_1_0_0_1_n_n.rhsIdx i q 1).val = (i 1).val := by
  unfold DotDims.rhsIdx
  rw [dif_neg (show ¬(1 : Fin S16256x128.rank) ∈ dot_S16x16256_S16256x128_S16x128_1_0_0_1_n_n.rhsBatch by decide),
    dif_pos (show (1 : Fin S16256x128.rank) ∈ dot_S16x16256_S16256x128_S16x128_1_0_0_1_n_n.rhsNonContracting by decide)]
  rfl

/-- Entry `(c, n)` of `a · b` for `a : [16, edges]`, `b : [edges, 128]` from a zero accumulator: the sum over the edges. -/
theorem mm_seg_apply (a : FVec Ideal S16x16256 .bf16) (b : FVec Ideal S16256x128 .bf16) (c : Fin 16) (n : Fin 128) :
    matmul dot_S16x16256_S16256x128_S16x128_1_0_0_1_n_n none a b (constant S16x128 .f32 0x00000000#32) (ix2 c n)
      = ∑ k : Fin 16256, a (ix2 c k) * b (ix2 k n) := by
  simp only [matmul]
  rw [Ideal.matmul_constant_zero_apply,
    ← Equiv.sum_comp (ValueIdx.contrEquiv1 dot_S16x16256_S16256x128_S16x128_1_0_0_1_n_n 16256 rfl rfl).symm]
  refine Finset.sum_congr rfl fun k _ => ?_
  have hk := ValueIdx.contrEquiv1_symm_val dot_S16x16256_S16256x128_S16x128_1_0_0_1_n_n 16256 rfl rfl k
  have el : dot_S16x16256_S16256x128_S16x128_1_0_0_1_n_n.lhsIdx (ix2 c n)
      ((ValueIdx.contrEquiv1 dot_S16x16256_S16256x128_S16x128_1_0_0_1_n_n 16256 rfl rfl).symm k) = ix2 c k :=
    funext fun x => Fin.ext (by
      match x with
      | ⟨0, _⟩ => exact lhs_seg_0 _ _
      | ⟨1, _⟩ => exact (lhs_seg_1 _ _).trans hk)
  have er : dot_S16x16256_S16256x128_S16x128_1_0_0_1_n_n.rhsIdx (ix2 c n)
      ((ValueIdx.contrEquiv1 dot_S16x16256_S16256x128_S16x128_1_0_0_1_n_n 16256 rfl rfl).symm k) = ix2 k n :=
    funext fun x => Fin.ext (by
      match x with
      | ⟨0, _⟩ => exact (rhs_seg_0 _ _).trans hk
      | ⟨1, _⟩ => exact rhs_seg_1 _ _)
  rw [el, er]

/-! ## The second product: nodes contracted against the transposed table -/

theorem lhs_back_0 (i : S16x16256.Idx) (q : dot_S16x128_S128x16256_S16x16256_1_0_0_1_n_n.contr.Idx) :
    (dot_S16x128_S128x16256_S16x16256_1_0_0_1_n_n.lhsIdx i q 0).val = (i 0).val := by
  unfold DotDims.lhsIdx
  rw [dif_neg (show ¬(0 : Fin S16x128.rank) ∈ dot_S16x128_S128x16256_S16x16256_1_0_0_1_n_n.lhsBatch by decide),
    dif_pos (show (0 : Fin S16x128.rank) ∈ dot_S16x128_S128x16256_S16x16256_1_0_0_1_n_n.lhsNonContracting by decide)]
  rfl
theorem lhs_back_1 (i : S16x16256.Idx) (q : dot_S16x128_S128x16256_S16x16256_1_0_0_1_n_n.contr.Idx) :
    (dot_S16x128_S128x16256_S16x16256_1_0_0_1_n_n.lhsIdx i q 1).val = (q ⟨0, by decide⟩).val :=
  dot_S16x128_S128x16256_S16x16256_1_0_0_1_n_n.lhsIdx_val_of_single rfl i q
theorem rhs_back_0 (i : S16x16256.Idx) (q : dot_S16x128_S128x16256_S16x16256_1_0_0_1_n_n.contr.Idx) :
    (dot_S16x128_S128x16256_S16x16256_1_0_0_1_n_n.rhsIdx i q 0).val = (q ⟨0, by decide⟩).val :=
  dot_S16x128_S128x16256_S16x16256_1_0_0_1_n_n.rhsIdx_val_of_single rfl i q
theorem rhs_back_1 (i : S16x16256.Idx) (q : dot_S16x128_S128x16256_S16x16256_1_0_0_1_n_n.contr.Idx) :
    (dot_S16x128_S128x16256_S16x16256_1_0_0_1_n_n.rhsIdx i q 1).val = (i 1).val := by
  unfold DotDims.rhsIdx
  rw [dif_neg (show ¬(1 : Fin S128x16256.rank) ∈ dot_S16x128_S128x16256_S16x16256_1_0_0_1_n_n.rhsBatch by decide),
    dif_pos (show (1 : Fin S128x16256.rank) ∈ dot_S16x128_S128x16256_S16x16256_1_0_0_1_n_n.rhsNonContracting by decide)]
  rfl

/-- Entry `(c, r)` of `a · b` for `a : [16, 128]`, `b : [128, edges]` from a zero accumulator: the sum over the nodes. -/
theorem mm_back_apply (a : FVec Ideal S16x128 .bf16) (b : FVec Ideal S128x16256 .bf16) (c : Fin 16) (r : Fin 16256) :
    matmul dot_S16x128_S128x16256_S16x16256_1_0_0_1_n_n none a b (constant S16x16256 .f32 0x00000000#32) (ix2 c r)
      = ∑ n : Fin 128, a (ix2 c n) * b (ix2 n r) := by
  simp only [matmul]
  rw [Ideal.matmul_constant_zero_apply,
    ← Equiv.sum_comp (ValueIdx.contrEquiv1 dot_S16x128_S128x16256_S16x16256_1_0_0_1_n_n 128 rfl rfl).symm]
  refine Finset.sum_congr rfl fun k _ => ?_
  have hk := ValueIdx.contrEquiv1_symm_val dot_S16x128_S128x16256_S16x16256_1_0_0_1_n_n 128 rfl rfl k
  have el : dot_S16x128_S128x16256_S16x16256_1_0_0_1_n_n.lhsIdx (ix2 c r)
      ((ValueIdx.contrEquiv1 dot_S16x128_S128x16256_S16x16256_1_0_0_1_n_n 128 rfl rfl).symm k) = ix2 c k :=
    funext fun x => Fin.ext (by
      match x with
      | ⟨0, _⟩ => exact lhs_back_0 _ _
      | ⟨1, _⟩ => exact (lhs_back_1 _ _).trans hk)
  have er : dot_S16x128_S128x16256_S16x16256_1_0_0_1_n_n.rhsIdx (ix2 c r)
      ((ValueIdx.contrEquiv1 dot_S16x128_S128x16256_S16x16256_1_0_0_1_n_n 128 rfl rfl).symm k) = ix2 k r :=
    funext fun x => Fin.ext (by
      match x with
      | ⟨0, _⟩ => exact (rhs_back_0 _ _).trans hk
      | ⟨1, _⟩ => exact rhs_back_1 _ _)
  rw [el, er]

/-! ## The layout steps at an entry -/

/-- The transposed slab at `(0, c, r)` is the slab at `(0, r, c)`. -/
theorem slabT_apply (v0 : FVec Ideal S1x16256x16 .f32) (c : Fin 16) (r : Fin 16256) :
    transpose S1x16x16256 [0, 2, 1] v0 transposes_S1x16256x16_p0_2_1_S1x16x16256 (ix3 0 c r) = v0 (ix3 0 r c) :=
  transpose_apply [0, 2, 1] v0 transposes_S1x16256x16_p0_2_1_S1x16x16256 (ix3 0 c r) (ix3 0 r c) (fun b => match b with
    | ⟨0, _⟩ => rfl
    | ⟨1, _⟩ => rfl
    | ⟨2, _⟩ => rfl)

/-- Dropping the unit batch axis: `[1, 16, edges] → [16, edges]` at `(c, r)` reads `(0, c, r)`. -/
theorem dropUnit_apply {φ : FTy} (v : FVec Ideal S1x16x16256 φ) (c : Fin 16) (r : Fin 16256) :
    shapeCast S16x16256 v shapeCasts_S1x16x16256_S16x16256 (ix2 c r) = v (ix3 0 c r) :=
  shapeCast_apply v shapeCasts_S1x16x16256_S16x16256 (ix2 c r) (ix3 0 c r) (by
    rw [Shape.rowMajor_val_three, Shape.rowMajor_val_two]
    simp)

/-- Restoring it: `[16, edges] → [1, 16, edges]` at `(0, c, r)` reads `(c, r)`. -/
theorem addUnit_apply {φ : FTy} (v : FVec Ideal S16x16256 φ) (c : Fin 16) (r : Fin 16256) :
    shapeCast S1x16x16256 v shapeCasts_S16x16256_S1x16x16256 (ix3 0 c r) = v (ix2 c r) :=
  shapeCast_apply v shapeCasts_S16x16256_S1x16x16256 (ix3 0 c r) (ix2 c r) (by
    rw [Shape.rowMajor_val_three, Shape.rowMajor_val_two]
    simp)

/-! ## The stored value -/

/-- ENTRY `(0, c, r)` OF THE BODY'S STORE. -/
theorem pay_apply (v0 : FVec Ideal S1x16256x16 .f32) (v5 : FVec Ideal S16256x128 .bf16) (v9 : FVec Ideal S128x16256 .bf16)
    (c : Fin 16) (r : Fin 16256) :
    k0_pay1 (F := Ideal) v0 v5 v9 (ix3 0 c r)
      = Ideal.div (v0 (ix3 0 r c))
          (∑ n : Fin 128, (∑ r' : Fin 16256, Ideal.exp (v0 (ix3 0 r' c)) * v5 (ix2 r' n)) * v9 (ix2 n r)) := by
  unfold k0_pay1
  dsimp only
  refine (divf_apply _ _ _).trans ?_
  refine congrArg₂ Ideal.div (slabT_apply v0 c r) ?_
  refine (addUnit_apply _ c r).trans ?_
  refine (mm_back_apply _ _ c r).trans ?_
  refine Finset.sum_congr rfl fun n _ => ?_
  refine congrArg₂ (· * ·) ?_ ?_
  · refine (truncf_apply (φ := .f32) (ψ := .bf16) _ bitsLt_bf16_f32 _).trans ?_
    refine (mm_seg_apply _ _ c n).trans ?_
    refine Finset.sum_congr rfl fun r' _ => ?_
    refine congrArg₂ (· * ·) ?_ ?_
    · refine (dropUnit_apply _ c r').trans ?_
      refine (truncf_apply (φ := .f32) (ψ := .bf16) _ bitsLt_bf16_f32 _).trans ?_
      show Ideal.exp (transpose S1x16x16256 [0, 2, 1] v0 transposes_S1x16256x16_p0_2_1_S1x16x16256 (ix3 0 c r')) = _
      rw [slabT_apply]
    · rw [shapeCast_self]
  · rw [shapeCast_self]

end Cert.EdgeNorm

end
-- ==== Proof.OneHot.lean ====
/-
  One-hot contractions on the extended reals.

  Each edge `r` carries a node word `recv r`; `hot w n` is 1 when the word `w` is node `n` and 0 otherwise (what a
  comparison with the node ids, converted to a float, holds). Contracting edge weights `e` against the one-hot
  table over the edges gives each node the sum of the weights of its edges; contracting that against the table's
  transpose over the nodes hands each edge the sum at its own node. Both steps use only `x * 1 = x` and `x * 0 = 0`,
  which hold for every extended real, so no weight needs to be finite.
-/
import Idealize.ShloMosaic.PureOps.Ideal.Laws
import Idealize.ShloMosaic.Lib.ValueIdx
import Idealize.ShloMosaic.Lib.StableHlo.Predicate

noncomputable section

namespace Cert.EdgeNorm

open Idealize.ShloMosaic

/-- The indicator that the word `w` is node `n`. -/
def hot (w : BitVec 32) (n : ℕ) : EReal := if w = BitVec.ofNat 32 n then 1 else 0

/-- Node ids below 128 are distinct words. -/
theorem ofNat_inj_small {a b : ℕ} (ha : a < 128) (hb : b < 128) (h : BitVec.ofNat 32 a = BitVec.ofNat 32 b) : a = b := by
  have := congrArg BitVec.toNat h
  simp only [BitVec.toNat_ofNat, Nat.reducePow] at this
  omega

/-- An equality test of two words, converted to a float, is the indicator of their equality. -/
theorem uitofp_cmpi_eq (φ : FTy) (a b : BitVec 32) :
    (FloatOps.uitofp (F := Ideal) φ (IntOp.cmpi .eq a b) : EReal) = if a = b then 1 else 0 := by
  by_cases h : a = b
  · rw [if_pos h, StableHlo.Predicate.cmpi_eq_iff.mpr h]
    show (((1#1 : BitVec 1).toNat : ℝ) : EReal) = 1
    norm_num
  · rw [if_neg h]
    have h0 : IntOp.cmpi .eq a b = 0#1 :=
      ValueIdx.eq_zero_of_ne_one (fun h1 => h (StableHlo.Predicate.cmpi_eq_iff.mp h1))
    rw [h0]
    show (((0#1 : BitVec 1).toNat : ℝ) : EReal) = 0
    norm_num

/-- THE LAW. If edge `r`'s word is a node id `n0 < 128`, the double contraction — over the edges against the one-hot
    table, then over the 128 nodes against its transpose — is the sum of the weights of the edges that share `r`'s word. -/
theorem hot_contract {R : ℕ} (recv : Fin R → BitVec 32) (e : Fin R → EReal) (r : Fin R) (n0 : Fin 128)
    (hr : recv r = BitVec.ofNat 32 n0.val) :
    ∑ n : Fin 128, (∑ r' : Fin R, e r' * hot (recv r') n.val) * hot (recv r) n.val
      = ∑ r' : Fin R, if recv r' = recv r then e r' else 0 := by
  rw [Finset.sum_eq_single n0]
  · have h1 : hot (recv r) n0.val = 1 := by unfold hot; rw [if_pos hr]
    rw [h1, mul_one]
    refine Finset.sum_congr rfl fun r' _ => ?_
    unfold hot
    rw [hr]
    by_cases h : recv r' = BitVec.ofNat 32 n0.val
    · rw [if_pos h, if_pos h, mul_one]
    · rw [if_neg h, if_neg h, mul_zero]
  · intro n _ hn
    have h0 : hot (recv r) n.val = 0 := by
      unfold hot
      rw [if_neg]
      rw [hr]
      intro h
      exact hn (Fin.ext (ofNat_inj_small n0.isLt n.isLt h).symm)
    rw [h0, mul_zero]
  · intro h
    exact absurd (Finset.mem_univ _) h

/-! ## The specification -/

/-- Every edge's word is a node id: one of the 128 words `0, …, 127`. -/
def InRange (recv : IVec ⟨1, ![16256]⟩ 32) : Prop :=
  ∀ r : Fin 16256, ∃ n : Fin 128, recv (ValueIdx.ix1 r) = BitVec.ofNat 32 n.val

/-- THE RESULT both programs compute, as one function of the two argument arrays: entry `(b, c, r)` is `x(b, r, c)`
    divided by the sum of `exp x(b, r', c)` over the edges `r'` whose word is edge `r`'s. -/
def edgeQuot (x : FVec Ideal ⟨3, ![128, 16256, 16]⟩ .f32) (recv : IVec ⟨1, ![16256]⟩ 32) :
    FVec Ideal ⟨3, ![128, 16, 16256]⟩ .f32 :=
  fun i => Ideal.div (x (ValueIdx.ix3 (i 0) (i 2) (i 1)))
    (∑ r' : Fin 16256, if recv (ValueIdx.ix1 r') = recv (ValueIdx.ix1 (i 2))
      then Ideal.exp (x (ValueIdx.ix3 (i 0) r' (i 1))) else 0)

end Cert.EdgeNorm

end
-- ==== Proof.HostGlue.lean ====
/-
  The one-hot table the kernel is handed.

  Before the region, the host compares each edge's word (laid along the rows) with the node ids `0, …, 127` (an iota
  laid along the columns) and converts the truth value to a float: entry `(r, n)` of the table is 1 when edge `r`'s
  word is node `n` and 0 otherwise. The second operand is its transpose.
-/
import proofs.«417916_j18124761989894_2_alg».proof.Proof.Gen.KernelIdeal.Frame
import proofs.«417916_j18124761989894_2_alg».proof.Proof.OneHot
import Idealize.ShloMosaic.Lib.StableHlo.Predicate
import Idealize.ShloMosaic.Lib.StableHlo.Run
import Idealize.ShloMosaic.Lib.Pipeline.Value

noncomputable section

namespace Cert.EdgeNorm

open Idealize.ShloMosaic Idealize.ShloMosaic.ValueIdx Idealize.ShloMosaic.TcCoe Idealize.SL.Sem Idealize.ShloMosaic.StableHlo
open Cert.KernelIdeal Cert.KernelIdeal.Gen

/-- The table as a function of the words: the host's five operations composed. -/
def hotTable (recv : IVec S16256 32) : FVec Ideal S16256x128 .bf16 :=
  uitofp .bf16 (cmpi .eq
    (broadcastInDim S16256x128 ![0, 1] bcast_S16256x1_S16256x128_0_1 (broadcastInDim S16256x1 ![0] bcast_S16256_S16256x1_0 recv))
    (broadcastInDim S16256x128 ![0, 1] bcast_S1x128_S16256x128_0_1 (broadcastInDim S1x128 ![1] bcast_S128_S1x128_1 (iotaInDim S128 32 0))))

/-- Entry `(r, n)`: the indicator that edge `r`'s word is node `n`. -/
theorem hotTable_apply (recv : IVec S16256 32) (r : Fin 16256) (n : Fin 128) :
    hotTable recv (ix2 r n) = hot (recv (ix1 r)) n.val := by
  have e : (ix2 r n : S16256x128.Idx) = StableHlo.Predicate.ij r n :=
    funext fun a => match a with | ⟨0, _⟩ => rfl | ⟨1, _⟩ => rfl
  have e1 : (Shape.Idx.ofFin r : S16256.Idx) = ix1 r := funext fun a => match a with | ⟨0, _⟩ => rfl
  unfold hotTable uitofp cmpi
  dsimp only
  rw [e, StableHlo.Predicate.bcast_rows, StableHlo.Predicate.bcast_cols, StableHlo.Predicate.iota_apply,
    uitofp_cmpi_eq, e1]
  rfl

variable (m : (ℓ : Loc nD τ sig) → Buf (Elt Ideal) ℓ)

/-- The region finds the second operand's array holding the table of the launch's words. -/
theorem V_table (c : Dev nD) :
    (V m c main_v6 : S16256x128.Idx → EReal) = hotTable (m ((c : Thread nD τ).loc main_arg1)) := by
  dsimp only [V, hostOps0]
  after_results
  rfl

/-- And the third operand's array holding its transpose. -/
theorem V_tableT (c : Dev nD) :
    (V m c main_v7 : S128x16256.Idx → EReal)
      = transpose S128x16256 [1, 0] (hotTable (m ((c : Thread nD τ).loc main_arg1))) transposes_S16256x128_S128x16256_1_0 := by
  dsimp only [V, hostOps0]
  after_results
  rfl

/-- Entry `(n, r)` of the transpose is entry `(r, n)` of the table. -/
theorem tableT_apply (recv : IVec S16256 32) (n : Fin 128) (r : Fin 16256) :
    transpose S128x16256 [1, 0] (hotTable recv) transposes_S16256x128_S128x16256_1_0 (ix2 n r) = hot (recv (ix1 r)) n.val := by
  rw [← hotTable_apply]
  exact transpose_apply [1, 0] (hotTable recv) transposes_S16256x128_S128x16256_1_0 (ix2 n r) (ix2 r n) (fun b => match b with
    | ⟨0, _⟩ => rfl
    | ⟨1, _⟩ => rfl)

end Cert.EdgeNorm

end
-- ==== Proof.KernelValue.lean ====
/-
  What the kernel leaves in its result array.

  The grid has one point per batch: point `t` is handed slab `t` of `x` (all edges, all channels), the whole one-hot
  table and the whole transposed table, and writes slab `t` of the result (all channels, all edges). So the body's
  store at point `t`, entry `(0, c, r)`, is the double contraction of `OneHot` over slab `t`, which the law there
  turns into the sum over the edges sharing `r`'s word: block `t` of `edgeQuot`. The 128 blocks tile the array
  (entry `(b, c, r)` is in block `b`), so the array ends holding `edgeQuot` of the two arguments.

  Needs every word to be a node id (`InRange`): the second contraction picks one node's sum only then.
-/
import proofs.«417916_j18124761989894_2_alg».proof.Proof.Gen.KernelIdeal.Value
import proofs.«417916_j18124761989894_2_alg».proof.Proof.Payload
import proofs.«417916_j18124761989894_2_alg».proof.Proof.HostGlue
import proofs.«417916_j18124761989894_2_alg».proof.Proof.OneHot

noncomputable section

namespace Cert.EdgeNorm

open Idealize.ShloMosaic Idealize.ShloMosaic.ValueIdx Idealize.ShloMosaic.TcCoe Idealize.SL.Sem
open Cert.KernelIdeal Cert.KernelIdeal.Gen
open Idealize.ShloMosaic.Pipeline (Dat)

/-! ## One grid point, over variables of the literal types -/

/-- If `v0` is slab `b` of `x`, and `v5`, `v9` are the one-hot table of `recv` and its transpose, the body's store at
    `y = (0, c, r)` is `edgeQuot x recv` at `i = (b, c, r)`. -/
theorem point_eq (x : FVec Ideal S128x16256x16 .f32) (recv : IVec S16256 32) (hR : InRange recv)
    (v0 : FVec Ideal S1x16256x16 .f32) (v5 : FVec Ideal S16256x128 .bf16) (v9 : FVec Ideal S128x16256 .bf16) (b : Fin 128)
    (h0 : ∀ (r : Fin 16256) (c : Fin 16), v0 (ix3 0 r c) = x (ix3 b r c))
    (h5 : ∀ (r : Fin 16256) (n : Fin 128), v5 (ix2 r n) = hot (recv (ix1 r)) n.val)
    (h9 : ∀ (n : Fin 128) (r : Fin 16256), v9 (ix2 n r) = hot (recv (ix1 r)) n.val)
    (y : S1x16x16256.Idx) (i : S128x16x16256.Idx)
    (hi0 : (i 0).val = b.val) (hi1 : (i 1).val = (y 1).val) (hi2 : (i 2).val = (y 2).val) :
    k0_pay1 (F := Ideal) v0 v5 v9 y = edgeQuot x recv i := by
  obtain ⟨c, r, rfl⟩ : ∃ (c : Fin 16) (r : Fin 16256), y = ix3 0 c r :=
    ⟨y 1, y 2, funext fun a => Fin.ext (by
      match a with
      | ⟨0, _⟩ => exact (show (y 0).val = 0 by have h : (y 0).val < 1 := (y 0).isLt; omega)
      | ⟨1, _⟩ => rfl
      | ⟨2, _⟩ => rfl)⟩
  have hi : i = ix3 b c r := funext fun a => Fin.ext (by
    match a with
    | ⟨0, _⟩ => exact hi0
    | ⟨1, _⟩ => exact hi1
    | ⟨2, _⟩ => exact hi2)
  subst hi
  rw [pay_apply]
  show Ideal.div (v0 (ix3 0 r c)) _ = Ideal.div (x (ix3 b r c))
    (∑ r' : Fin 16256, if recv (ix1 r') = recv (ix1 r) then Ideal.exp (x (ix3 b r' c)) else 0)
  rw [h0]
  refine congrArg (Ideal.div (x (ix3 b r c))) ?_
  simp only [h0, h5, h9]
  obtain ⟨n0, hn0⟩ := hR r
  exact hot_contract (fun r' => recv (ix1 r')) (fun r' => Ideal.exp (x (ix3 b r' c))) r n0 hn0

/-! ## The windows' blocks -/

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the 128 points: the slab windows follow the point along the batch axis,
    the two tables stay at their one block. -/
theorem idx_facts : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- The batch a point works on. -/
abbrev batchOf (t : Fin cfg0.N) : Fin 128 := ⟨t.val, lt_of_lt_of_eq t.isLt N_0⟩

/-- Point `t`'s block of `x` is slab `t`. -/
theorem blk_x (c : Dev nD) (t : Fin cfg0.N) (r : Fin 16256) (ch : Fin 16) :
    iblk m c 0 t (ix3 0 r ch) = m ((c : Thread nD τ).loc main_arg0) (ix3 (batchOf t) r ch) := by
  obtain ⟨e0, e1, e2, -⟩ := idx_facts t
  unfold iblk
  show V m c main_arg0 (((cfg0.win 0).blk t).view.emb (ix3 0 r ch)) = _
  rw [V_main_arg0]
  refine congrArg _ (funext fun a => Fin.ext ?_)
  match a with
  | ⟨0, _⟩ => show win0_0.index t (0 : Fin 3) * 1 + 1 * 0 = t.val; omega
  | ⟨1, _⟩ => show win0_0.index t (1 : Fin 3) * 16256 + 1 * r.val = r.val; omega
  | ⟨2, _⟩ => show win0_0.index t (2 : Fin 3) * 16 + 1 * ch.val = ch.val; omega

/-- Every point's block of the second operand is the whole one-hot table. -/
theorem blk_table (c : Dev nD) (t : Fin cfg0.N) (r : Fin 16256) (n : Fin 128) :
    iblk m c 1 t (ix2 r n) = hot (m ((c : Thread nD τ).loc main_arg1) (ix1 r)) n.val := by
  obtain ⟨-, -, -, e0, e1, -⟩ := idx_facts t
  unfold iblk
  show V m c main_v6 (((cfg0.win 1).blk t).view.emb (ix2 r n)) = _
  rw [V_table m c, ← hotTable_apply]
  refine congrArg _ (funext fun a => Fin.ext ?_)
  match a with
  | ⟨0, _⟩ => show win0_1.index t (0 : Fin 2) * 16256 + 1 * r.val = r.val; omega
  | ⟨1, _⟩ => show win0_1.index t (1 : Fin 2) * 128 + 1 * n.val = n.val; omega

/-- Every point's block of the third operand is the whole transposed table. -/
theorem blk_tableT (c : Dev nD) (t : Fin cfg0.N) (n : Fin 128) (r : Fin 16256) :
    iblk m c 2 t (ix2 n r) = hot (m ((c : Thread nD τ).loc main_arg1) (ix1 r)) n.val := by
  obtain ⟨-, -, -, -, -, e0, e1, -⟩ := idx_facts t
  unfold iblk
  show V m c main_v7 (((cfg0.win 2).blk t).view.emb (ix2 n r)) = _
  rw [V_tableT m c, ← tableT_apply]
  refine congrArg _ (funext fun a => Fin.ext ?_)
  match a with
  | ⟨0, _⟩ => show win0_2.index t (0 : Fin 2) * 128 + 1 * n.val = n.val; omega
  | ⟨1, _⟩ => show win0_2.index t (1 : Fin 2) * 16256 + 1 * r.val = r.val; omega

/-! ## From the blocks to the array -/

/-- WHAT POINT `t` WRITES BACK is block `t` of `edgeQuot` of the argument arrays. -/
theorem flushed_eq (c : Dev nD) (hR : InRange (m ((c : Thread nD τ).loc main_arg1))) (t : Fin cfg0.N) :
    (dats m 0 c).flushed 3 t = ((cfg0.win 3).blk t).view.read (Elt Ideal)
      (edgeQuot (m ((c : Thread nD τ).loc main_arg0)) (m ((c : Thread nD τ).loc main_arg1))) := by
  rw [Value.flushed3]
  unfold out0_3
  rw [View.canon_unit_zero zeros3]
  simp only [View.ld_unit_zero (S := S1x16256x16) zeros3, View.ld_unit_zero (S := S16256x128) zeros2,
    View.ld_unit_zero (S := S128x16256) zeros2]
  obtain ⟨-, -, -, -, -, -, -, e0, e1, e2⟩ := idx_facts t
  funext y
  show k0_pay1 (F := Ideal) (iblk m c 0 t) (iblk m c 1 t) (iblk m c 2 t) y
    = edgeQuot (m ((c : Thread nD τ).loc main_arg0)) (m ((c : Thread nD τ).loc main_arg1)) (((cfg0.win 3).blk t).view.emb y)
  have y0 : (y 0).val < 1 := (y 0).isLt
  refine point_eq _ _ hR _ _ _ (batchOf t) (fun r ch => blk_x m c t r ch) (fun r n => blk_table m c t r n)
    (fun n r => blk_tableT m c t n r) y _ ?_ ?_ ?_
  · show win0_3.index t (0 : Fin 3) * 1 + 1 * (y 0).val = t.val; omega
  · show win0_3.index t (1 : Fin 3) * 16 + 1 * (y 1).val = (y 1).val; omega
  · show win0_3.index t (2 : Fin 3) * 16256 + 1 * (y 2).val = (y 2).val; omega

/-- An index of the result array is in point `t`'s block iff each coordinate is in the block's range on its axis. -/
theorem mem_blk (t : Fin cfg0.N) (i : S128x16x16256.Idx) :
    i ∈ ((cfg0.win 3).blk t).view.set ↔ ∀ a : Fin 3, win0_3.index t a * S1x16x16256.size a ≤ (i a).val
      ∧ (i a).val < win0_3.index t a * S1x16x16256.size a + S1x16x16256.size a := by
  show i ∈ ((View.whole main_v8).slice (win0_3.rect t)).set ↔ _
  rw [View.set_slice_whole, Rect.mem_set_unit]
  exact Iff.rfl

/-- Entry `(b, c, r)` is in block `b`: the blocks cover the array. -/
theorem cover (i : S128x16x16256.Idx) :
    ∃ t : Fin cfg0.N, (cfg0.win 3).flush t = true ∧ i ∈ ((cfg0.win 3).blk t).view.set := by
  have hN : cfg0.N = 128 := N_0
  have i0 : (i 0).val < 128 := (i 0).isLt
  have i1 : (i 1).val < 16 := (i 1).isLt
  have i2 : (i 2).val < 16256 := (i 2).isLt
  have ht : (i 0).val < cfg0.N := by omega
  obtain ⟨-, -, -, -, -, -, -, e0, e1, e2⟩ := idx_facts ⟨(i 0).val, ht⟩
  have e0' : win0_3.index ⟨(i 0).val, ht⟩ (0 : Fin 3) = (i 0).val := e0
  refine ⟨⟨(i 0).val, ht⟩, flush0_3 _, ?_⟩
  rw [mem_blk]
  intro a
  match a with
  | ⟨0, _⟩ =>
    show win0_3.index ⟨(i 0).val, ht⟩ (0 : Fin 3) * 1 ≤ (i 0).val ∧ (i 0).val < win0_3.index ⟨(i 0).val, ht⟩ (0 : Fin 3) * 1 + 1
    rw [e0']; constructor <;> omega
  | ⟨1, _⟩ =>
    show win0_3.index ⟨(i 0).val, ht⟩ (1 : Fin 3) * 16 ≤ (i 1).val ∧ (i 1).val < win0_3.index ⟨(i 0).val, ht⟩ (1 : Fin 3) * 16 + 16
    rw [e1]; constructor <;> omega
  | ⟨2, _⟩ =>
    show win0_3.index ⟨(i 0).val, ht⟩ (2 : Fin 3) * 16256 ≤ (i 2).val ∧ (i 2).val < win0_3.index ⟨(i 0).val, ht⟩ (2 : Fin 3) * 16256 + 16256
    rw [e2]; constructor <;> omega

/-- THE RESULT ARRAY after the run is `edgeQuot` of the argument arrays. -/
theorem final (c : Dev nD) (hR : InRange (m ((c : Thread nD τ).loc main_arg1))) :
    (dats m 0 c).arrAt 3 cfg0.N
      = edgeQuot (m ((c : Thread nD τ).loc main_arg0)) (m ((c : Thread nD τ).loc main_arg1)) :=
  (dats m 0 c).arrAt_eq_of_cover 3 _ (fun t _ => flushed_eq m c hR t) cover

/-- The kernel's run, read: the result at `edgeQuot` of the arguments, the arguments unchanged. -/
theorem kernel_run (hR : ∀ c : Dev nD, InRange (m ((c : Thread nD τ).loc main_arg1))) :
    θ_run defs (onTc (τ := τ) (main (F := Ideal))) ⟨m, fun _ => 0, ρ⟩ fun r => ∀ c : Dev nD,
      r.2.mem ((c : Thread nD τ).loc main_v8)
        = edgeQuot (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (hR c)), (h c).2⟩) (Value.run_blocks m ρ)

end Cert.EdgeNorm

end
-- ==== Proof.SegIndex.lean ====
/-
  Where the reference's scatter and gather go.

  The reference sums the edge weights into a table of node rows by a scatter-add whose scatter index for update
  `(r, b, c)` is the one word at row `r` of a one-column index array: the update lands on table entry `(n, b, c)`
  exactly when that word, read signed, is `n` (and is dropped when the word is outside `[0, 128)`). It then reads a
  row back per edge by a gather whose start index is again the word at row `r`, read signed and clamped into
  `[0, 127]`. Both facts are computations on the operations' literal dimension numbers.
-/
import proofs.«417916_j18124761989894_2_alg».proof.ReferenceIdeal
import proofs.«417916_j18124761989894_2_alg».proof.Proof.Gen.ReferenceIdeal
import Idealize.ShloMosaic.Lib.ValueIdx

noncomputable section

namespace Cert.EdgeNorm

open Idealize.ShloMosaic Cert.ReferenceIdeal Cert.ReferenceIdeal.Gen

/-- The scatter's dimension numbers: updates `[edge, batch, channel]` into rows of `[node, batch, channel]`. -/
abbrev scat : ScatterDims S128x128x16 S16256x1 S16256x128x16 := scatter_S128x128x16_S16256x1_S16256x128x16_12_0_0_1
/-- The gather's dimension numbers: one row of `[node, batch, channel]` per edge. -/
abbrev gath : GatherDims S128x128x16 S16256x1 S16256x128x16 := gather_S128x128x16_S16256x1_S16256x128x16_12_0_n_n_0_1_112816

/-- Row `r` of the one-column index array, for the edge `r = j 0` of an `[edge, batch, channel]` index. -/
abbrev rowIdx (j : S16256x128x16.Idx) : S16256x1.Idx := fun a => match a with
  | ⟨0, _⟩ => ⟨(j 0).val, (j 0).isLt⟩
  | ⟨1, _⟩ => ⟨0, Nat.one_pos⟩

/-! ## The scatter -/

theorem scat_start0 (j : S16256x128x16.Idx) (idx : IVec S16256x1 32) : scat.start j idx 0 = (idx (rowIdx j)).toInt := by
  unfold ScatterDims.start
  rw [dif_pos (show (0 : Fin 3) ∈ scat.scatterDimsToOperandDims from List.mem_singleton.mpr rfl)]
  have hsi : scat.siIdx j ⟨List.idxOf (0 : Fin 3) scat.scatterDimsToOperandDims,
      List.idxOf_lt_length_iff.2 (List.mem_singleton.mpr rfl)⟩ = rowIdx j := by
    funext b; refine Fin.ext ?_
    match b with
    | ⟨0, _⟩ => rfl
    | ⟨1, _⟩ => rfl
  rw [hsi]

theorem scat_start1 (j : S16256x128x16.Idx) (idx : IVec S16256x1 32) : scat.start j idx 1 = 0 := by
  unfold ScatterDims.start
  rw [dif_neg (by decide)]

theorem scat_start2 (j : S16256x128x16.Idx) (idx : IVec S16256x1 32) : scat.start j idx 2 = 0 := by
  unfold ScatterDims.start
  rw [dif_neg (by decide)]

theorem scat_window0 (j : S16256x128x16.Idx) : scat.window j 0 = 0 := by
  unfold ScatterDims.window
  rw [dif_neg (by decide)]

theorem scat_window1 (j : S16256x128x16.Idx) : scat.window j 1 = (j 1).val := by
  unfold ScatterDims.window
  rw [dif_pos (by decide)]
  rfl

theorem scat_window2 (j : S16256x128x16.Idx) : scat.window j 2 = (j 2).val := by
  unfold ScatterDims.window
  rw [dif_pos (by decide)]
  rfl

/-- Update `j = (r, b, c)` lands on table entry `i = (n, b', c')` exactly when the word at row `r`, read signed, is
    `n`, and `b = b'`, `c = c'`. -/
theorem scat_lands (j : S16256x128x16.Idx) (idx : IVec S16256x1 32) (i : S128x128x16.Idx) :
    scat.resultIdx? j idx = some i ↔
      (idx (rowIdx j)).toInt = ((i 0).val : ℤ) ∧ (j 1).val = (i 1).val ∧ (j 2).val = (i 2).val := by
  have e0 : scat.start j idx 0 + (scat.window j 0 : ℤ) = (idx (rowIdx j)).toInt := by
    rw [scat_start0, scat_window0]; simp
  have e1 : scat.start j idx 1 + (scat.window j 1 : ℤ) = ((j 1).val : ℤ) := by
    rw [scat_start1, scat_window1]; simp
  have e2 : scat.start j idx 2 + (scat.window j 2 : ℤ) = ((j 2).val : ℤ) := by
    rw [scat_start2, scat_window2]; simp
  constructor
  · intro h
    unfold ScatterDims.resultIdx? at h
    split at h
    · rename_i hb
      have hi := Option.some.inj h
      have h0 := congrArg (fun f : S128x128x16.Idx => (f 0).val) hi
      have h1 := congrArg (fun f : S128x128x16.Idx => (f 1).val) hi
      have h2 := congrArg (fun f : S128x128x16.Idx => (f 2).val) hi
      simp only at h0 h1 h2
      have b0 := (hb 0).1
      have b1 := (hb 1).1
      have b2 := (hb 2).1
      rw [e0] at h0 b0
      rw [e1] at h1
      rw [e2] at h2
      refine ⟨by omega, by omega, by omega⟩
    · cases h
  · rintro ⟨h0, h1, h2⟩
    have i0 := (i 0).isLt
    have i1 := (i 1).isLt
    have i2 := (i 2).isLt
    have hb : ∀ a, 0 ≤ scat.start j idx a + (scat.window j a : ℤ) ∧
        scat.start j idx a + (scat.window j a : ℤ) < S128x128x16.size a := by
      intro a
      match a with
      | ⟨0, _⟩ => rw [show (⟨0, _⟩ : Fin S128x128x16.rank) = 0 from rfl, e0, h0]; exact ⟨by omega, by exact_mod_cast i0⟩
      | ⟨1, _⟩ => rw [show (⟨1, _⟩ : Fin S128x128x16.rank) = 1 from rfl, e1, h1]; exact ⟨by omega, by exact_mod_cast i1⟩
      | ⟨2, _⟩ => rw [show (⟨2, _⟩ : Fin S128x128x16.rank) = 2 from rfl, e2, h2]; exact ⟨by omega, by exact_mod_cast i2⟩
    unfold ScatterDims.resultIdx?
    rw [dif_pos hb]
    refine congrArg some (funext fun a => Fin.ext ?_)
    match a with
    | ⟨0, _⟩ => show (scat.start j idx 0 + (scat.window j 0 : ℤ)).toNat = (i 0).val; rw [e0, h0]; simp
    | ⟨1, _⟩ => show (scat.start j idx 1 + (scat.window j 1 : ℤ)).toNat = (i 1).val; rw [e1, h1]; simp
    | ⟨2, _⟩ => show (scat.start j idx 2 + (scat.window j 2 : ℤ)).toNat = (i 2).val; rw [e2, h2]; simp

/-! ## The gather -/

/-- The table entry the gather reads for result `j = (r, b, c)`: row "the word at row `r`, signed, clamped into
    `[0, 127]`", columns `b` and `c`. -/
abbrev gathAt (j : S16256x128x16.Idx) (idx : IVec S16256x1 32) : S128x128x16.Idx := fun a => match a with
  | ⟨0, _⟩ => ⟨min (idx (rowIdx j)).toInt.toNat 127, Nat.lt_of_le_of_lt (Nat.min_le_right _ _) (by decide : 127 < 128)⟩
  | ⟨1, _⟩ => ⟨(j 1).val, (j 1).isLt⟩
  | ⟨2, _⟩ => ⟨(j 2).val, (j 2).isLt⟩

theorem gath_start0 (j : S16256x128x16.Idx) (idx : IVec S16256x1 32) :
    gath.start j idx 0 = min (idx (rowIdx j)).toInt.toNat 127 := by
  unfold GatherDims.start
  rw [dif_pos (show (0 : Fin 3) ∈ gath.startIndexMap from List.mem_singleton.mpr rfl)]
  have hsi : gath.siIdx j ⟨List.idxOf (0 : Fin 3) gath.startIndexMap,
      List.idxOf_lt_length_iff.2 (List.mem_singleton.mpr rfl)⟩ = rowIdx j := by
    funext b; refine Fin.ext ?_
    match b with
    | ⟨0, _⟩ => rfl
    | ⟨1, _⟩ => rfl
  rw [hsi]
  rfl

/-- THE GATHER READ AT `j`. -/
theorem gath_apply {α : Type} (x : S128x128x16.Idx → α) (idx : IVec S16256x1 32) (j : S16256x128x16.Idx) :
    Host.gather gath x idx j = x (gathAt j idx) := by
  unfold Host.gather
  refine congrArg x (funext fun a => Fin.ext ?_)
  show gath.start j idx a + gath.batchCoord j a + gath.offCoord j a = _
  rw [GatherDims.batchCoord_eq_zero _ _ _ List.not_mem_nil, Nat.add_zero]
  match a with
  | ⟨0, _⟩ =>
    rw [show (⟨0, _⟩ : Fin S128x128x16.rank) = 0 from rfl, gath_start0,
      GatherDims.offCoord_eq_zero _ _ _ (by decide)]
    rfl
  | ⟨1, _⟩ =>
    have hs : gath.start j idx 1 = 0 := by unfold GatherDims.start; rw [dif_neg (by decide)]
    have ho : gath.offCoord j 1 = (j 1).val := by unfold GatherDims.offCoord; rw [dif_pos (by decide)]; rfl
    rw [show (⟨1, _⟩ : Fin S128x128x16.rank) = 1 from rfl, hs, ho, Nat.zero_add]
  | ⟨2, _⟩ =>
    have hs : gath.start j idx 2 = 0 := by unfold GatherDims.start; rw [dif_neg (by decide)]
    have ho : gath.offCoord j 2 = (j 2).val := by unfold GatherDims.offCoord; rw [dif_pos (by decide)]; rfl
    rw [show (⟨2, _⟩ : Fin S128x128x16.rank) = 2 from rfl, hs, ho, Nat.zero_add]

end Cert.EdgeNorm

end
-- ==== Proof.RefValue.lean ====
/-
  The reference's result, entry by entry.

  The reference exponentiates, scatter-adds the edges' rows into a zero table of node rows, gathers one node row back
  per edge (negative words wrapped by 128 first, the start index clamped), and divides the transposed input by it.
  When every word is a node id, the wrap and the clamp do nothing, an update lands on node `n` exactly when its edge's
  word is `n`, and two words are equal exactly when they read the same signed: entry `(b, c, r)` is `x(b, r, c)` over
  the sum of `exp x(b, r', c)` over the edges `r'` whose word is edge `r`'s.
-/
import proofs.«417916_j18124761989894_2_alg».proof.Proof.Gen.ReferenceIdeal.Read
import proofs.«417916_j18124761989894_2_alg».proof.Proof.SegIndex
import proofs.«417916_j18124761989894_2_alg».proof.Proof.OneHot
import Idealize.ShloMosaic.Lib.StableHlo.Predicate

noncomputable section

namespace Cert.EdgeNorm

open Idealize.ShloMosaic Idealize.ShloMosaic.ValueIdx Cert.ReferenceIdeal Cert.ReferenceIdeal.Gen Cert.ReferenceIdeal.Read

/-- The edge of an `[edge, batch, channel]` index, at its literal range. -/
abbrev edge (j : S16256x128x16.Idx) : Fin 16256 := ⟨(j 0).val, (j 0).isLt⟩

/-- The scatter's index word for update `j` is its edge's word. -/
theorem scatWord (x1 : IVec S16256 32) (j : S16256x128x16.Idx) :
    val_main_v3 (F := Ideal) x1 (rowIdx j) = x1 (ix1 (edge j)) := by
  rw [val_main_v3_apply]
  exact congrArg x1 (funext fun a => match a with | ⟨0, _⟩ => rfl)

/-- A node id is not negative, so the wrap of negative words leaves it alone. -/
theorem wrap_id (x1 : IVec S16256 32) (r : Fin 16256) (n : Fin 128) (hr : x1 (ix1 r) = BitVec.ofNat 32 n.val) :
    val_main_v9 (F := Ideal) x1 (ix1 r) = x1 (ix1 r) := by
  have hn := n.isLt
  have hlt : ¬IntOp.cmpi .slt (x1 (ix1 r)) 0#32 = 1#1 := by
    rw [hr, StableHlo.Predicate.slt_iff_toNat (by rw [BitVec.toNat_ofNat]; omega) (by decide)]
    simp
  rw [val_main_v9_apply, val_main_v6_apply, val_main_v5_apply, val_main_c_apply,
    ValueIdx.eq_zero_of_ne_one hlt, ValueIdx.select_zero]

/-- The gather's index word for result `j` is its edge's word, when that is a node id. -/
theorem gathWord (x1 : IVec S16256 32) (j : S16256x128x16.Idx) (n : Fin 128)
    (hr : x1 (ix1 (edge j)) = BitVec.ofNat 32 n.val) :
    val_main_v10 (F := Ideal) x1 (rowIdx j) = BitVec.ofNat 32 n.val := by
  rw [val_main_v10_apply]
  have e : idx_main_v10 (rowIdx j) = ix1 (edge j) := funext fun a => match a with | ⟨0, _⟩ => rfl
  rw [e, wrap_id x1 (edge j) n hr, hr]

/-- The node table: entry `(n, b, c)` is the sum of `exp x(b, r', c)` over the edges `r'` whose word reads `n`. -/
theorem table_apply (x0 : FVec Ideal S128x16256x16 .f32) (x1 : IVec S16256 32) (n : Fin 128) (b : Fin 128) (c : Fin 16) :
    val_main_v4 (F := Ideal) x0 x1 (ix3 n b c)
      = ∑ r' : Fin 16256, if (x1 (ix1 r')).toInt = (n.val : ℤ) then Ideal.exp (x0 (ix3 b r' c)) else 0 := by
  unfold val_main_v4
  show Ideal.hostScatterAdd scat _ _ _ _ = _
  unfold Ideal.hostScatterAdd
  have hz : val_main_v2 (F := Ideal) (ix3 n b c) = 0 := by
    rw [val_main_v2_apply, val_main_cst_apply]
    exact Ideal.ofBits_zero_f32
  rw [hz, zero_add, ← Finset.sum_filter]
  refine Finset.sum_nbij' (fun j => edge j) (fun r' => ix3 r' b c) ?_ ?_ ?_ ?_ ?_
  · intro j hj
    have h := (scat_lands j _ _).mp (Finset.mem_filter.mp hj).2
    rw [scatWord] at h
    exact Finset.mem_filter.mpr ⟨Finset.mem_univ _, h.1⟩
  · intro r' hr'
    refine Finset.mem_filter.mpr ⟨Finset.mem_univ _, (scat_lands _ _ _).mpr ⟨?_, rfl, rfl⟩⟩
    rw [scatWord]
    exact (Finset.mem_filter.mp hr').2
  · intro j hj
    have h := (scat_lands j _ _).mp (Finset.mem_filter.mp hj).2
    funext a
    refine Fin.ext ?_
    match a with
    | ⟨0, _⟩ => rfl
    | ⟨1, _⟩ => exact h.2.1.symm
    | ⟨2, _⟩ => exact h.2.2.symm
  · intro r' _
    rfl
  · intro j hj
    have h := (scat_lands j _ _).mp (Finset.mem_filter.mp hj).2
    rw [val_main_v1_apply, val_main_v0_apply]
    show Ideal.exp (x0 (idx_main_v1 j)) = _
    refine congrArg (fun k => Ideal.exp (x0 k)) (funext fun a => Fin.ext ?_)
    match a with
    | ⟨0, _⟩ => exact h.2.1
    | ⟨1, _⟩ => rfl
    | ⟨2, _⟩ => exact h.2.2

/-- THE REFERENCE IS THE SPECIFICATION, when every word is a node id. -/
theorem ref_eq (x0 : FVec Ideal S128x16256x16 .f32) (x1 : IVec S16256 32) (hR : InRange x1) :
    val_main_v14 (F := Ideal) x0 x1 = edgeQuot x0 x1 := by
  funext i
  obtain ⟨b, c, r, rfl⟩ : ∃ (b : Fin 128) (c : Fin 16) (r : Fin 16256), i = ix3 b c r := ⟨i 0, i 1, i 2, eq_ix3 i⟩
  obtain ⟨n, hn⟩ := hR r
  have hnl := n.isLt
  rw [val_main_v14_apply, val_main_v13_apply, val_main_v12_apply]
  show Ideal.div _ _ = Ideal.div _ _
  have e13 : idx_main_v13 (ix3 b c r) = ix3 b r c := funext fun a => match a with
    | ⟨0, _⟩ => rfl
    | ⟨1, _⟩ => rfl
    | ⟨2, _⟩ => rfl
  have e12 : idx_main_v12 (ix3 b c r) = ix3 r b c := funext fun a => match a with
    | ⟨0, _⟩ => rfl
    | ⟨1, _⟩ => rfl
    | ⟨2, _⟩ => rfl
  rw [e13, e12]
  refine congrArg (Ideal.div (x0 (ix3 b r c))) ?_
  unfold val_main_v11
  rw [gath_apply]
  have hw : val_main_v10 (F := Ideal) x1 (rowIdx (ix3 r b c)) = BitVec.ofNat 32 n.val := gathWord x1 (ix3 r b c) n hn
  have hg : gathAt (ix3 r b c) (val_main_v10 (F := Ideal) x1) = ix3 n b c := by
    funext a
    refine Fin.ext ?_
    match a with
    | ⟨0, _⟩ =>
      show min (val_main_v10 (F := Ideal) x1 (rowIdx (ix3 r b c))).toInt.toNat 127 = n.val
      rw [hw, StableHlo.Predicate.toInt_ofNat_small n.val (by omega)]
      simp only [Int.toNat_natCast]
      omega
    | ⟨1, _⟩ => rfl
    | ⟨2, _⟩ => rfl
  rw [hg, table_apply]
  refine Finset.sum_congr rfl fun r' _ => ?_
  have hiff : (x1 (ix1 r')).toInt = (n.val : ℤ) ↔ x1 (ix1 r') = x1 (ix1 r) := by
    rw [hn, ← StableHlo.Predicate.toInt_ofNat_small n.val (by omega)]
    exact BitVec.toInt_inj
  by_cases h : x1 (ix1 r') = x1 (ix1 r)
  · rw [if_pos (hiff.mpr h), if_pos h]
  · rw [if_neg (fun h' => h (hiff.mp h')), if_neg h]

end Cert.EdgeNorm

end
-- ==== Proof.PreRange.lean ====
/-
  What the precondition says about the words.

  The precondition is the conjunction of three reductions by `and`: every `x` finite, every word `≥ 0` (signed), every
  word `< 128` (signed). A signed word in `[0, 128)` is one of the 128 node ids.
-/
import proofs.«417916_j18124761989894_2_alg».proof.Pre_finite_inputs
import proofs.«417916_j18124761989894_2_alg».proof.Proof.Gen.Pre_finite_inputs
import proofs.«417916_j18124761989894_2_alg».proof.Proof.OneHot
import Idealize.ShloMosaic.Lib.ReduceAll
import Idealize.ShloMosaic.Lib.Affine
import Idealize.ShloMosaic.Lib.StableHlo.Predicate

noncomputable section

namespace Cert.EdgeNorm

open Idealize.ShloMosaic Idealize.ShloMosaic.ValueIdx Cert.Pre_finite_inputs Cert.Pre_finite_inputs.Gen

instance : Subsingleton S_.Idx := ⟨fun _ _ => funext fun d => d.elim0⟩

/-- A word that is `≥ 0` and `< 128` as a signed integer is a node id. -/
theorem word_range (w : BitVec 32) (hge : IntOp.cmpi .sge w 0#32 = 1#1) (hlt : IntOp.cmpi .slt w 128#32 = 1#1) :
    ∃ n : Fin 128, w = BitVec.ofNat 32 n.val := by
  change BitVec.ofBool ((0#32 : BitVec 32).sle w) = 1#1 at hge
  change BitVec.ofBool (w.slt 128#32) = 1#1 at hlt
  have h1 := (StableHlo.Predicate.ofBool_eq_one_iff _).mp hge
  have h2 := (StableHlo.Predicate.ofBool_eq_one_iff _).mp hlt
  simp only [BitVec.sle, BitVec.slt, decide_eq_true_eq] at h1 h2
  have z : (0#32 : BitVec 32).toInt = 0 := by decide
  have o : (128#32 : BitVec 32).toInt = 128 := by decide
  rw [z] at h1
  rw [o] at h2
  refine ⟨⟨w.toInt.toNat, by omega⟩, ?_⟩
  apply BitVec.eq_of_toInt_eq
  rw [StableHlo.Predicate.toInt_ofNat_small _ (by show w.toInt.toNat < 2 ^ 31; omega)]
  show w.toInt = ((w.toInt.toNat : ℕ) : ℤ)
  omega

/-- THE PRECONDITION PUTS EVERY WORD IN RANGE. -/
theorem inRange_of_pre (x : FVec Ideal S128x16256x16 .f32) (recv : IVec S16256 32)
    (h : Cert.Pre_finite_inputs.fn (F := Ideal) x recv = fun _ => 1#1) : InRange recv := by
  have h0 := congrFun h ValueIdx.ix0
  unfold Cert.Pre_finite_inputs.fn at h0
  dsimp only at h0
  change IntOp.andi _ _ = 1#1 at h0
  obtain ⟨h12, h3⟩ := IntOp.andi_eq_one.mp h0
  change IntOp.andi _ _ = 1#1 at h12
  obtain ⟨_, h2⟩ := IntOp.andi_eq_one.mp h12
  intro r
  have hge := Host.reduce_andi_all _ _ _ _ _ h2 (ix1 r)
  have hlt := Host.reduce_andi_all _ _ _ _ _ h3 (ix1 r)
  exact word_range (recv (ix1 r)) hge hlt

end Cert.EdgeNorm

end
-- ==== Proof.lean ====
/-
  Edge scores normalised by their receiver's sum of exponentials: `out[b, c, r] = x[b, r, c] / ∑ exp x[b, r', c]`, the sum
  over the edges `r'` with the same receiver word as `r`.

  The kernel builds a one-hot table `h[r, n] = (receivers[r] = n)` for the 128 node ids on the host and, per batch,
  contracts `exp x` over the edges against `h` (each node's sum) and the result over the nodes against `hᵀ` (each edge
  is handed its node's sum); the reference scatter-adds the edges' rows into a table of node rows and gathers one row
  back per edge. On the extended reals both are the function `EdgeNorm.edgeQuot` of the two arguments, PROVIDED every
  receiver word is a node id in `[0, 128)`, which the precondition states: outside it the one-hot row is all zero (the
  kernel divides by zero) while the reference's gather clamps (and wraps a negative word) onto some node's row. The
  law that joins the two sides (OneHot.lean) uses only `x · 1 = x` and `x · 0 = 0`, so finiteness of `x` is not used.

  The modules: OneHot (the law and the specification), SegIndex (where the reference's scatter lands and its gather
  reads), RefValue (the reference is the specification), Payload (the kernel body's store at an entry), HostGlue (the
  one-hot table as the region finds it), KernelValue (blocks to array: the kernel's run at the specification),
  PreRange (the precondition puts every word in range).
-/
import proofs.«417916_j18124761989894_2_alg».proof.Defs
import proofs.«417916_j18124761989894_2_alg».proof.Proof.Gen.Kernel
import proofs.«417916_j18124761989894_2_alg».proof.Proof.Gen.Kernel.Skeleton
import proofs.«417916_j18124761989894_2_alg».proof.Proof.Gen.Kernel.Launch
import proofs.«417916_j18124761989894_2_alg».proof.Proof.Gen.Kernel.Points
import proofs.«417916_j18124761989894_2_alg».proof.Proof.Gen.Kernel.Frame
import proofs.«417916_j18124761989894_2_alg».proof.Proof.Gen.KernelIdeal
import proofs.«417916_j18124761989894_2_alg».proof.Proof.Gen.KernelIdeal.Skeleton
import proofs.«417916_j18124761989894_2_alg».proof.Proof.Gen.KernelIdeal.Launch
import proofs.«417916_j18124761989894_2_alg».proof.Proof.Gen.KernelIdeal.Points
import proofs.«417916_j18124761989894_2_alg».proof.Proof.Gen.KernelIdeal.Frame
import proofs.«417916_j18124761989894_2_alg».proof.Proof.Gen.ReferenceIdeal
import proofs.«417916_j18124761989894_2_alg».proof.Proof.Gen.Pre_finite_inputs
import proofs.«417916_j18124761989894_2_alg».proof.Proof.Gen.KernelIdeal.Value
import proofs.«417916_j18124761989894_2_alg».proof.Proof.Gen.ReferenceIdeal.Run
import proofs.«417916_j18124761989894_2_alg».proof.Proof.Gen.ReferenceIdeal.Read
import proofs.«417916_j18124761989894_2_alg».proof.Proof.KernelValue
import proofs.«417916_j18124761989894_2_alg».proof.Proof.RefValue
import proofs.«417916_j18124761989894_2_alg».proof.Proof.PreRange
import Idealize.ShloMosaic.Adequacy
import Idealize.ShloMosaic.Init

noncomputable section

namespace Cert.Proof

open Idealize.ShloMosaic Idealize.SL.Sem

/-- The word-level kernel runs and keeps its arguments: the generated frame. -/
theorem frame_k : Cert.frame_Kernel := fun m ρ _ => Cert.Kernel.Gen.frame m ρ

/-- So does its idealization. -/
theorem frame_ki : Cert.frame_KernelIdeal := fun m ρ _ => Cert.KernelIdeal.Gen.frame m ρ

/-- The reference is host operations only: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- The ideal pass rewrote nothing. -/
theorem preserves : Cert.preserves_Kernel_KernelIdeal := trivial

/-- Both programs end with `edgeQuot` of the arguments: the kernel by the one-hot law over its blocks, the reference by
    reading its scatter and gather, each using that the precondition puts every receiver word in `[0, 128)`. -/
theorem algebraic : Cert.algebraic_KernelIdeal_ReferenceIdeal := by
  intro m ρ m' ρ' hpre hagree
  have hR : ∀ c : Dev Cert.KernelIdeal.nD, Cert.EdgeNorm.InRange
      (m ((c.tc : Thread Cert.KernelIdeal.nD Cert.KernelIdeal.τ).loc Cert.KernelIdeal.main_arg1)) :=
    fun c => Cert.EdgeNorm.inRange_of_pre _ _ (hpre c)
  refine ⟨fun c => Cert.EdgeNorm.edgeQuot
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.EdgeNorm.kernel_run m ρ hR, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v14_eq, (hagree c).1, (hagree c).2]
  exact Cert.EdgeNorm.ref_eq _ _ (hR c)

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
